-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S16384x4096 : Shape := ⟨2, ![16384, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S16384x4096 : S_.BroadcastsInDim S16384x4096 (![] : Fin 0 → Fin S16384x4096.rank)
  reducesTo_S16384x4096_S_d0_1 : S16384x4096.ReducesTo [0, 1] S_

variable [Facts]

def fn {F : FTy → Type} [FloatOps F] (main_arg0 : FVec F S8192x4096 .f32) (main_arg1 : FVec F S16384x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  main_v8
-- ==== Kernel.lean ====
abbrev S8192x4096 : Shape := ⟨2, ![8192, 4096]⟩
abbrev S16384x4096 : Shape := ⟨2, ![16384, 4096]⟩
abbrev S8192x16384 : Shape := ⟨2, ![8192, 16384]⟩
abbrev S512x4096 : Shape := ⟨2, ![512, 4096]⟩
abbrev S512x512 : Shape := ⟨2, ![512, 512]⟩
abbrev S512 : Shape := ⟨1, ![512]⟩
abbrev S512x1 : Shape := ⟨2, ![512, 1]⟩

abbrev nBuf : Space → Nat
  | .hbm => 4
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S16384x4096, .f32⟩
  | .hbm, ⟨2, _⟩ => ⟨S16384x4096, .bf16⟩
  | .hbm, ⟨3, _⟩ => ⟨S8192x16384, .f32⟩
  | .local _ .vmem, ⟨0, _⟩ => ⟨S512x4096, .f32⟩
  | .local _ .vmem, ⟨1, _⟩ => ⟨S512x4096, .f32⟩
  | .local _ .vmem, ⟨2, _⟩ => ⟨S512x4096, .bf16⟩
  | .local _ .vmem, ⟨3, _⟩ => ⟨S512x4096, .bf16⟩
  | .local _ .vmem, ⟨4, _⟩ => ⟨S512x512, .f32⟩
  | .local _ .vmem, ⟨5, _⟩ => ⟨S512x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  reduces_S512x4096_S512 : S512x4096.Reduces [1] S512
  shapeCasts_S512_S512x1 : S512.ShapeCasts S512x1
  broadcasts_S512x1_S512x4096 : S512x1.Broadcasts S512x4096
  shapeCasts_S512x4096_S512x4096 : S512x4096.ShapeCasts S512x4096
  inb_S512x512_S512x512_0_0 : ∀ a, (![0, 0] : Fin 2 → Nat) a + S512x512.size a ≤ S512x512.size a
  h_S512x512 : 0 < S512x512.numel
  dot_S512x4096_S512x4096_S512x512_1_1_0_0_n_n_wf : DotDims.WF S512x4096 S512x4096 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S16384x4096.size a
  hwx0_1 : ∀ i : grid0.Coords, EltTy.bits .bf16 = 32 ∨ (Rect.block (s := S16384x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S8192x16384.size a
  hwx0_2 : ∀ i : grid0.Coords, EltTy.bits .f32 = 32 ∨ (Rect.block (s := S8192x16384) S512x512.size (cc0_transform_2 i) (hinb0_2 i)).WholeWords (EltTy.packing .f32)

variable [Facts₀]

def dot_S512x4096_S512x4096_S512x512_1_1_0_0_n_n : DotDims S512x4096 S512x4096 S512x512 where
  lhsContracting := [1]
  rhsContracting := [1]
  lhsNonContracting := [0]
  rhsNonContracting := [0]
  lhsBatch := []
  rhsBatch := []
  wf := dot_S512x4096_S512x4096_S512x512_1_1_0_0_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S16384x4096 : Shape := ⟨2, ![16384, 4096]⟩
abbrev S_ : Shape := ⟨0, ![]⟩
abbrev S8192 : Shape := ⟨1, ![8192]⟩
abbrev S8192x1 : Shape := ⟨2, ![8192, 1]⟩
abbrev S8192x16384 : Shape := ⟨2, ![8192, 16384]⟩

abbrev nBuf : Space → Nat
  | .hbm => 34
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S16384x4096, .f32⟩
  | .hbm, ⟨2, _⟩ => ⟨S_, .f32⟩
  | .hbm, ⟨3, _⟩ => ⟨S8192, .f32⟩
  | .hbm, ⟨4, _⟩ => ⟨S8192x1, .f32⟩
  | .hbm, ⟨5, _⟩ => ⟨S_, .f32⟩
  | .hbm, ⟨6, _⟩ => ⟨S8192x1, .f32⟩
  | .hbm, ⟨7, _⟩ => ⟨S8192x1, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x4096, .f32⟩
  | .hbm, ⟨18, _⟩ => ⟨S8192x4096, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x4096, .f32⟩
  | .hbm, ⟨24, _⟩ => ⟨S8192x4096, .f32⟩
  | .hbm, ⟨25, _⟩ => ⟨S8192x16384, .f32⟩
  | .hbm, ⟨26, _⟩ => ⟨S8192x16384, .f32⟩
  | .hbm, ⟨27, _⟩ => ⟨S8192x16384, .f32⟩
  | .hbm, ⟨28, _⟩ => ⟨S_, .f32⟩
  | .hbm, ⟨29, _⟩ => ⟨S8192x16384, .f32⟩
  | .hbm, ⟨30, _⟩ => ⟨S8192x16384, .f32⟩
  | .hbm, ⟨31, _⟩ => ⟨S_, .f32⟩
  | .hbm, ⟨32, _⟩ => ⟨S8192x16384, .f32⟩
  | .hbm, ⟨33, _⟩ => ⟨S8192x16384, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_cst_5 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]

class Facts₀ : Prop where
  reducesTo_S8192x4096_S8192_d1 : S8192x4096.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x4096_0_1 : S8192x1.BroadcastsInDim S8192x4096 (![0, 1] : Fin 2 → Fin S8192x4096.rank)
  bcast_S_S8192x16384 : S_.BroadcastsInDim S8192x16384 (![] : Fin 0 → Fin S8192x16384.rank)
  dot_S8192x4096_S16384x4096_S8192x16384_1_1_0_0_n_n_wf : DotDims.WF S8192x4096 S16384x4096 S8192x16384 [1] [1] [0] [0] [] []

variable [Facts₀]

def dot_S8192x4096_S16384x4096_S8192x16384_1_1_0_0_n_n : DotDims S8192x4096 S16384x4096 S8192x16384 where
  lhsContracting := [1]
  rhsContracting := [1]
  lhsNonContracting := [0]
  rhsNonContracting := [0]
  lhsBatch := []
  rhsBatch := []
  wf := dot_S8192x4096_S16384x4096_S8192x16384_1_1_0_0_n_n_wf

class Facts : Prop extends Facts₀ where

variable [Facts]
-- ==== Proof.Spec.lean ====
/-
  Layer normalisation of a row, a linear map and the logistic function, as functions on the extended reals.

  A row `f` of 4096 entries has mean `μ = (Σ f k) / 4096`, centred entries `f k - μ`, the biased variance
  `σ² = (Σ (f k - μ)²) / 4096` and normalised entries `(f k - μ) · (σ² + ε)^(-1/2)`. Its score against a weight
  row `w` is `Σ normalised k · w k`, and the value kept is the logistic function `1 / (1 + e^(-score))` of it.
  The divisor 4096 and the ε are the two f32 patterns both programs spell; they are never evaluated, since the
  same word stands on both sides. The result array at (r, o) is this value of row r of the data and row o of the
  weights: the one function both programs are shown to compute.
-/
import Idealize.ShloMosaic.PureOps.Ideal
import Idealize.ShloMosaic.Lib.ValueIdx

noncomputable section

open scoped BigOperators

namespace Cert.NormLinear

open Idealize.ShloMosaic Idealize.ShloMosaic.ValueIdx

/-- The length of a row as both programs write it: the f32 pattern of 4096. -/
abbrev width : EReal := Ideal.ofBits .f32 0x45800000#32

/-- The variance's regulariser as both programs write it: the f32 pattern nearest 1e-5. -/
abbrev eps : EReal := Ideal.ofBits .f32 0x3727C5AC#32

/-- The mean of a row: its sum over the width. -/
def rowMean (f : Fin 4096 → EReal) : EReal := Ideal.div (∑ k : Fin 4096, f k) width

/-- A row's entry less the row's mean. -/
def centred (f : Fin 4096 → EReal) (k : Fin 4096) : EReal := f k - rowMean f

/-- The biased variance of a row: the mean of the squares of its centred entries. -/
def rowVar (f : Fin 4096 → EReal) : EReal := Ideal.div (∑ k : Fin 4096, centred f k * centred f k) width

/-- The reciprocal of the regularised standard deviation. -/
def invDev (f : Fin 4096 → EReal) : EReal := Ideal.rsqrt (rowVar f + eps)

/-- A normalised entry. -/
def normed (f : Fin 4096 → EReal) (k : Fin 4096) : EReal := centred f k * invDev f

/-- The normalised row against a weight row. -/
def score (f w : Fin 4096 → EReal) : EReal := ∑ k : Fin 4096, normed f k * w k

/-- The logistic function of the score. -/
def squashed (f w : Fin 4096 → EReal) : EReal := Ideal.logistic (score f w)

/-- Row `r` of an array with rows of 4096 entries. -/
abbrev rowOf {n : Nat} (a : (⟨2, ![n, 4096]⟩ : Shape).Idx → EReal) (r : Fin n) : Fin 4096 → EReal := fun k => a (ix2 r k)

/-- The result array: at (r, o) the squashed score of row r of `x` against row o of `w`. -/
def result (x : (⟨2, ![8192, 4096]⟩ : Shape).Idx → EReal) (w : (⟨2, ![16384, 4096]⟩ : Shape).Idx → EReal) :
    (⟨2, ![8192, 16384]⟩ : Shape).Idx → EReal :=
  fun i => squashed (rowOf x (i 0)) (rowOf w (i 1))

theorem result_apply (x : (⟨2, ![8192, 4096]⟩ : Shape).Idx → EReal) (w : (⟨2, ![16384, 4096]⟩ : Shape).Idx → EReal)
    (r : Fin 8192) (o : Fin 16384) : result x w (ix2 r o) = squashed (rowOf x r) (rowOf w o) := rfl

end Cert.NormLinear

end
-- ==== Proof.RefValue.lean ====
/-
  The reference computes the specification.

  Read one operation at a time, the reference's result at (r, o) is built from row r of the data and row o of the
  weights alone: the row's sum over its width is the mean, the data less the broadcast mean the centred entries,
  the sum of their squares over the width the variance, its regularised reciprocal square root the scale, the
  contraction of the scaled centred row with the weight row the score, and `1 / (1 + e^(-score))` the value —
  which is the logistic function, the constant one being the extended real 1. Each stage below states one of
  these readings; the sums start from the f32 zero, which is the extended real 0.
-/
import proofs.«144696_j59356448031118_1_alg».proof.Proof.Gen.ReferenceIdeal.Read
import proofs.«144696_j59356448031118_1_alg».proof.Proof.Spec
import Idealize.ShloMosaic.Lib.IdealHost

noncomputable section

open scoped BigOperators

namespace Cert.NormLinear.Reference

open Idealize.ShloMosaic Idealize.ShloMosaic.ValueIdx Cert.ReferenceIdeal Cert.ReferenceIdeal.Read Cert.NormLinear

/-- The data array and the weight array, as functions on their literal index sets. -/
abbrev Data : Type := (⟨2, ![8192, 4096]⟩ : Shape).Idx → EReal
abbrev Weights : Type := (⟨2, ![16384, 4096]⟩ : Shape).Idx → EReal

/-- The entry a row sum reads at position k, for the row that entry (r, ·) of a column of sums names. -/
theorem sumIdx_mean (r : Fin 8192) (z : Fin 1) (k : Fin 4096) : idx_main_v0 (idx_main_v1 (ix2 r z)) k = ix2 r k :=
  funext fun a => by match a with | ⟨0, _⟩ => rfl | ⟨1, _⟩ => rfl

theorem sumIdx_var (r : Fin 8192) (z : Fin 1) (k : Fin 4096) : idx_main_v7 (idx_main_v8 (ix2 r z)) k = ix2 r k :=
  funext fun a => by match a with | ⟨0, _⟩ => rfl | ⟨1, _⟩ => rfl

/-- A column broadcast along the rows reads, at (r, k), the column's entry (r, 0): three times in the program. -/
theorem colIdx_mean (r : Fin 8192) (k : Fin 4096) : idx_main_v4 (ix2 r k) = ix2 r (0 : Fin 1) :=
  funext fun a => by match a with | ⟨0, _⟩ => rfl | ⟨1, _⟩ => rfl

theorem colIdx_mean' (r : Fin 8192) (k : Fin 4096) : idx_main_v11 (ix2 r k) = ix2 r (0 : Fin 1) :=
  funext fun a => by match a with | ⟨0, _⟩ => rfl | ⟨1, _⟩ => rfl

theorem colIdx_scale (r : Fin 8192) (k : Fin 4096) : idx_main_v16 (ix2 r k) = ix2 r (0 : Fin 1) :=
  funext fun a => by match a with | ⟨0, _⟩ => rfl | ⟨1, _⟩ => rfl

/-- The column of means holds each row's mean. -/
theorem mean_at (x : Data) (r : Fin 8192) (z : Fin 1) : val_main_v3 (F := Ideal) x (ix2 r z) = rowMean (rowOf x r) := by
  rw [val_main_v3_apply, val_main_v1_apply, val_main_v0_apply, val_main_v2_apply, val_main_cst_0_apply, val_main_cst_apply]
  simp only [sumIdx_mean, Ideal.hostDivf_def, Ideal.ofBits_def, Ideal.ofBits_zero_f32, zero_add]
  rfl

/-- The data less the broadcast column of means holds the centred entries. -/
theorem centred_at (x : Data) (r : Fin 8192) (k : Fin 4096) :
    val_main_v5 (F := Ideal) x (ix2 r k) = centred (rowOf x r) k := by
  rw [val_main_v5_apply, val_main_v4_apply, colIdx_mean, mean_at]
  rfl

/-- The same subtraction, done a second time by the program for the normalised entries. -/
theorem centred_at' (x : Data) (r : Fin 8192) (k : Fin 4096) :
    val_main_v12 (F := Ideal) x (ix2 r k) = centred (rowOf x r) k := by
  rw [val_main_v12_apply, val_main_v11_apply, colIdx_mean', mean_at]
  rfl

/-- A square of a centred entry, as the variance's sum reads it. -/
theorem square_at (x : Data) (r : Fin 8192) (z : Fin 1) (k : Fin 4096) :
    val_main_v6 (F := Ideal) x (idx_main_v7 (idx_main_v8 (ix2 r z)) k) = centred (rowOf x r) k * centred (rowOf x r) k := by
  rw [sumIdx_var, val_main_v6_apply, centred_at]
  rfl

/-- The column of variances holds each row's biased variance. -/
theorem var_at (x : Data) (r : Fin 8192) (z : Fin 1) : val_main_v10 (F := Ideal) x (ix2 r z) = rowVar (rowOf x r) := by
  rw [val_main_v10_apply, val_main_v8_apply, val_main_v7_apply, val_main_v9_apply, val_main_cst_2_apply, val_main_cst_1_apply]
  simp only [square_at, Ideal.hostDivf_def, Ideal.ofBits_def, Ideal.ofBits_zero_f32, zero_add]
  rfl

/-- The column of scales holds each row's reciprocal regularised deviation. -/
theorem invDev_at (x : Data) (r : Fin 8192) (z : Fin 1) : val_main_v15 (F := Ideal) x (ix2 r z) = invDev (rowOf x r) := by
  rw [val_main_v15_apply, val_main_v14_apply, var_at, val_main_v13_apply, val_main_cst_3_apply]
  rfl

/-- The normalised array holds each row's normalised entries. -/
theorem normed_at (x : Data) (r : Fin 8192) (k : Fin 4096) :
    val_main_v17 (F := Ideal) x (ix2 r k) = normed (rowOf x r) k := by
  rw [val_main_v17_apply, centred_at', val_main_v16_apply, colIdx_scale, invDev_at]
  rfl

/-- The two operand entries the contraction multiplies at position k. -/
theorem lhsIdx_score (r : Fin 8192) (o : Fin 16384) (k : Fin 4096) : lidx_main_v18 (ix2 r o) k = ix2 r k :=
  funext fun a => by match a with | ⟨0, _⟩ => rfl | ⟨1, _⟩ => rfl

theorem rhsIdx_score (r : Fin 8192) (o : Fin 16384) (k : Fin 4096) : ridx_main_v18 (ix2 r o) k = ix2 o k :=
  funext fun a => by match a with | ⟨0, _⟩ => rfl | ⟨1, _⟩ => rfl

/-- The contraction holds the score of data row r against weight row o. -/
theorem score_at (x : Data) (w : Weights) (r : Fin 8192) (o : Fin 16384) :
    val_main_v18 (F := Ideal) x w (ix2 r o) = score (rowOf x r) (rowOf w o) := by
  rw [val_main_v18_apply]
  unfold score
  refine Finset.sum_congr rfl fun k _ => ?_
  rw [lhsIdx_score, rhsIdx_score, normed_at]

/-- The reference's result at (r, o): one over one plus the exponential of minus the score is its logistic function. -/
theorem squashed_at (x : Data) (w : Weights) (r : Fin 8192) (o : Fin 16384) :
    val_main_v24 (F := Ideal) x w (ix2 r o) = squashed (rowOf x r) (rowOf w o) := by
  rw [val_main_v24_apply, val_main_v23_apply, val_main_cst_5_apply, val_main_v22_apply, val_main_v21_apply,
    val_main_cst_4_apply, val_main_v20_apply, val_main_v19_apply, score_at]
  simp only [Ideal.hostDivf_def, Ideal.ofBits_def, Ideal.ofBits_one_f32, Ideal.addf_def, Ideal.hostUnary_exp_def,
    Ideal.hostNegf_def, Ideal.negf_def]
  rfl

/-- THE REFERENCE'S RESULT is the specification's array. -/
theorem value_eq (x : Data) (w : Weights) : val_main_v24 (F := Ideal) x w = result x w := by
  funext i
  obtain ⟨r, o, rfl⟩ : ∃ (r : Fin 8192) (o : Fin 16384), i = ix2 r o := ⟨i 0, i 1, eq_ix2 i⟩
  exact squashed_at x w r o

end Cert.NormLinear.Reference

end
-- ==== Proof.Payload.lean ====
/-
  What the kernel's body computes for one tile of the result.

  At a grid point the body holds a block of 512 data rows and a block of 512 weight rows, each row whole (4096
  entries). Entry (p, q) of the tile it stores depends on row p of the data block and row q of the weight block
  alone: the lane sum of the row over its width is the mean, kept as a column; the block less the column spread
  back along the rows gives the centred entries; the lane sum of their squares over the width the variance; the
  reciprocal square root of the regularised variance, again a column spread along the rows, scales the centred
  entries; the matrix product into a zero accumulator contracts the scaled row with the weight row; the logistic
  function closes. The narrowing of the scaled block to sixteen bits is the identity on the extended reals.
  So the tile's entry is the specification's value of those two rows.
-/
import proofs.«144696_j59356448031118_1_alg».proof.Proof.Gen.KernelIdeal.Skeleton
import proofs.«144696_j59356448031118_1_alg».proof.Proof.Spec
import Idealize.ShloMosaic.Lib.Pipeline.Value
import Idealize.ShloMosaic.Lib.ValueIdx
import Idealize.ShloMosaic.PureOps.Ideal.Laws

noncomputable section

open scoped BigOperators

namespace Cert.NormLinear.Kernel

open Idealize.ShloMosaic Idealize.ShloMosaic.ValueIdx Cert.KernelIdeal Cert.KernelIdeal.Gen Cert.NormLinear

/-! ## Reductions and layout changes read at an index -/

/-- A lane sum over the width, read at row p: the sum of the row's entries. -/
theorem rowSum_apply (v : FVec Ideal S512x4096 .f32) (h : S512x4096.Reduces [1] S512) (hφ : FKind.Formats .f32)
    (hacc : (0x00000000#32 : BitVec 32) = 0x00000000#32) (p : Fin 512) :
    multiReduction .add [1] S512 v 0x00000000#32 h hφ hacc (ix1 p) = ∑ k : Fin 4096, v (ix2 p k) := by
  refine (Ideal.multiReduction_add_single v 0x00000000#32 h hφ hacc (ix1 p)).trans ?_
  exact Finset.sum_congr rfl fun k _ => congrArg v (funext fun a => Fin.ext (by match a with | ⟨0, _⟩ => rfl | ⟨1, _⟩ => rfl))

/-- A vector of 512 entries recast as a column: entry (p, 0) is entry p. -/
theorem colOfVec_apply (v : S512.Idx → EReal) (h : S512.ShapeCasts S512x1) (p : Fin 512) (z : Fin 1) :
    shapeCast S512x1 v h (ix2 p z) = v (ix1 p) :=
  shapeCast_apply v h (ix2 p z) (ix1 p) (by
    rw [Shape.rowMajor_val_one, Shape.rowMajor_val_two]
    show p.val = p.val * 1 + z.val
    omega)

/-- A column spread along the rows: entry (p, k) is the column's entry (p, 0). -/
theorem spreadCol_apply (v : S512x1.Idx → EReal) (h : S512x1.Broadcasts S512x4096) (p : Fin 512) (k : Fin 4096) :
    broadcastTo S512x4096 v h (ix2 p k) = v (ix2 p (0 : Fin 1)) :=
  broadcastTo_apply v h (ix2 p k) (ix2 p (0 : Fin 1)) (fun a => match a with
    | ⟨0, _⟩ => by show p.val = if (512 : Nat) = 1 then 0 else p.val; rw [if_neg (by decide)]
    | ⟨1, _⟩ => by show 0 = if (1 : Nat) = 1 then 0 else k.val; rw [if_pos rfl])

/-! ## The matrix product read at an index -/

theorem lhs_axis0 (i : S512x512.Idx) (q : dot_S512x4096_S512x4096_S512x512_1_1_0_0_n_n.contr.Idx) :
    (dot_S512x4096_S512x4096_S512x512_1_1_0_0_n_n.lhsIdx i q 0).val = (i 0).val := by
  unfold DotDims.lhsIdx
  rw [dif_neg (show ¬(0 : Fin S512x4096.rank) ∈ dot_S512x4096_S512x4096_S512x512_1_1_0_0_n_n.lhsBatch by decide), dif_pos (show (0 : Fin S512x4096.rank) ∈ dot_S512x4096_S512x4096_S512x512_1_1_0_0_n_n.lhsNonContracting by decide)]
  rfl
theorem lhs_axis1 (i : S512x512.Idx) (q : dot_S512x4096_S512x4096_S512x512_1_1_0_0_n_n.contr.Idx) :
    (dot_S512x4096_S512x4096_S512x512_1_1_0_0_n_n.lhsIdx i q 1).val = (q ⟨0, by decide⟩).val :=
  dot_S512x4096_S512x4096_S512x512_1_1_0_0_n_n.lhsIdx_val_of_single rfl i q
theorem rhs_axis0 (i : S512x512.Idx) (q : dot_S512x4096_S512x4096_S512x512_1_1_0_0_n_n.contr.Idx) :
    (dot_S512x4096_S512x4096_S512x512_1_1_0_0_n_n.rhsIdx i q 0).val = (i 1).val := by
  unfold DotDims.rhsIdx
  rw [dif_neg (show ¬(0 : Fin S512x4096.rank) ∈ dot_S512x4096_S512x4096_S512x512_1_1_0_0_n_n.rhsBatch by decide), dif_pos (show (0 : Fin S512x4096.rank) ∈ dot_S512x4096_S512x4096_S512x512_1_1_0_0_n_n.rhsNonContracting by decide)]
  rfl
theorem rhs_axis1 (i : S512x512.Idx) (q : dot_S512x4096_S512x4096_S512x512_1_1_0_0_n_n.contr.Idx) :
    (dot_S512x4096_S512x4096_S512x512_1_1_0_0_n_n.rhsIdx i q 1).val = (q ⟨0, by decide⟩).val :=
  dot_S512x4096_S512x4096_S512x512_1_1_0_0_n_n.rhsIdx_val_of_single rfl i q

/-- The product of a block of rows with a block of rows, both contracted over the width, into the zero
    accumulator: entry (p, q) is the sum over the width of row p of the first times row q of the second. -/
theorem tile_apply (a : FVec Ideal S512x4096 .bf16) (b : FVec Ideal S512x4096 .bf16) (p q : Fin 512) :
    matmul dot_S512x4096_S512x4096_S512x512_1_1_0_0_n_n none a b (constant (F := Ideal) S512x512 .f32 0x00000000#32) (ix2 p q)
      = ∑ k : Fin 4096, a (ix2 p k) * b (ix2 q k) := by
  refine (Ideal.matmul_constant_zero_apply dot_S512x4096_S512x4096_S512x512_1_1_0_0_n_n none a b (ix2 p q)).trans ?_
  rw [← Equiv.sum_comp (contrEquiv1 dot_S512x4096_S512x4096_S512x512_1_1_0_0_n_n 4096 rfl rfl).symm]
  refine Finset.sum_congr rfl fun k _ => ?_
  have hk := contrEquiv1_symm_val dot_S512x4096_S512x4096_S512x512_1_1_0_0_n_n 4096 rfl rfl k
  have el : dot_S512x4096_S512x4096_S512x512_1_1_0_0_n_n.lhsIdx (ix2 p q) ((contrEquiv1 dot_S512x4096_S512x4096_S512x512_1_1_0_0_n_n 4096 rfl rfl).symm k) = ix2 p k := funext fun a => Fin.ext (by
    match a with
    | ⟨0, _⟩ => exact lhs_axis0 _ _
    | ⟨1, _⟩ => exact (lhs_axis1 _ _).trans hk)
  have er : dot_S512x4096_S512x4096_S512x512_1_1_0_0_n_n.rhsIdx (ix2 p q) ((contrEquiv1 dot_S512x4096_S512x4096_S512x512_1_1_0_0_n_n 4096 rfl rfl).symm k) = ix2 q k := funext fun a => Fin.ext (by
    match a with
    | ⟨0, _⟩ => exact rhs_axis0 _ _
    | ⟨1, _⟩ => exact (rhs_axis1 _ _).trans hk)
  rw [el, er]

/-! ## The body's stages -/

variable (x0 : FVec Ideal S512x4096 .f32) (w0 : FVec Ideal S512x4096 .bf16)

/-- The column of the block's row means. -/
def meanCol : FVec Ideal S512x1 .f32 :=
  divf (shapeCast S512x1 (multiReduction .add [1] S512 x0 0x00000000#32 reduces_S512x4096_S512 (.inl rfl) rfl) shapeCasts_S512_S512x1)
    (broadcast S512x1 (Scalar.ofBits .f32 0x45800000#32))

/-- The block less its means. -/
def cen : FVec Ideal S512x4096 .f32 := subf x0 (broadcastTo S512x4096 (meanCol x0) broadcasts_S512x1_S512x4096)

/-- The column of the block's row variances. -/
def varCol : FVec Ideal S512x1 .f32 :=
  divf (shapeCast S512x1 (multiReduction .add [1] S512 (mulf (cen x0) (cen x0)) 0x00000000#32 reduces_S512x4096_S512 (.inl rfl) rfl) shapeCasts_S512_S512x1)
    (broadcast S512x1 (Scalar.ofBits .f32 0x45800000#32))

/-- The column of the rows' scales. -/
def scaleCol : FVec Ideal S512x1 .f32 := rsqrt (addf (varCol x0) (broadcast S512x1 (Scalar.ofBits .f32 0x3727C5AC#32)))

/-- The normalised block. -/
def nrm : FVec Ideal S512x4096 .f32 := mulf (cen x0) (broadcastTo S512x4096 (scaleCol x0) broadcasts_S512x1_S512x4096)

/-- The body's stored value is the logistic function of the product of the narrowed normalised block with the weight block. -/
theorem payload_eq : k0_pay1 (F := Ideal) x0 w0
    = logistic (matmul dot_S512x4096_S512x4096_S512x512_1_1_0_0_n_n none (truncf .bf16 (nrm x0) bitsLt_bf16_f32)
        (shapeCast S512x4096 w0 shapeCasts_S512x4096_S512x4096) (constant (F := Ideal) S512x512 .f32 0x00000000#32)) := rfl

theorem meanCol_apply (p : Fin 512) (z : Fin 1) : meanCol x0 (ix2 p z) = rowMean (rowOf x0 p) := by
  unfold meanCol
  show Ideal.div (shapeCast S512x1 (multiReduction .add [1] S512 x0 0x00000000#32 reduces_S512x4096_S512 (.inl rfl) rfl) shapeCasts_S512_S512x1 (ix2 p z)) width = _
  rw [colOfVec_apply, rowSum_apply]
  rfl

theorem cen_apply (p : Fin 512) (k : Fin 4096) : cen x0 (ix2 p k) = centred (rowOf x0 p) k := by
  unfold cen
  show x0 (ix2 p k) - broadcastTo S512x4096 (meanCol x0) broadcasts_S512x1_S512x4096 (ix2 p k) = _
  rw [spreadCol_apply, meanCol_apply]
  rfl

theorem varCol_apply (p : Fin 512) (z : Fin 1) : varCol x0 (ix2 p z) = rowVar (rowOf x0 p) := by
  unfold varCol
  show Ideal.div (shapeCast S512x1 (multiReduction .add [1] S512 (mulf (cen x0) (cen x0)) 0x00000000#32 reduces_S512x4096_S512 (.inl rfl) rfl) shapeCasts_S512_S512x1 (ix2 p z)) width = _
  rw [colOfVec_apply, rowSum_apply]
  simp only [mulf_apply, cen_apply]
  rfl

theorem scaleCol_apply (p : Fin 512) (z : Fin 1) : scaleCol x0 (ix2 p z) = invDev (rowOf x0 p) := by
  unfold scaleCol
  show Ideal.rsqrt (varCol x0 (ix2 p z) + eps) = _
  rw [varCol_apply]
  rfl

theorem nrm_apply (p : Fin 512) (k : Fin 4096) : nrm x0 (ix2 p k) = normed (rowOf x0 p) k := by
  unfold nrm
  show cen x0 (ix2 p k) * broadcastTo S512x4096 (scaleCol x0) broadcasts_S512x1_S512x4096 (ix2 p k) = _
  rw [cen_apply, spreadCol_apply, scaleCol_apply]
  rfl

/-- THE TILE'S ENTRY (p, q): the specification's value of data row p and weight row q of the two blocks. -/
theorem payload_apply (p q : Fin 512) :
    k0_pay1 (F := Ideal) x0 w0 (ix2 p q) = squashed (rowOf x0 p) (rowOf w0 q) := by
  rw [payload_eq]
  show Ideal.logistic (matmul dot_S512x4096_S512x4096_S512x512_1_1_0_0_n_n none (truncf .bf16 (nrm x0) bitsLt_bf16_f32)
    (shapeCast S512x4096 w0 shapeCasts_S512x4096_S512x4096) (constant (F := Ideal) S512x512 .f32 0x00000000#32) (ix2 p q)) = _
  rw [tile_apply, shapeCast_self]
  unfold squashed score
  refine congrArg Ideal.logistic (Finset.sum_congr rfl fun k _ => ?_)
  show nrm x0 (ix2 p k) * w0 (ix2 q k) = _
  rw [nrm_apply]

end Cert.NormLinear.Kernel

end
-- ==== Proof.KernelValue.lean ====
/-
  The kernel's result array.

  The grid has 16 × 32 points; point t = 32·a + b stages rows 512a … 512a + 511 of the data (whole rows) and rows
  512b … 512b + 511 of the weights (whole rows; the weights reach the region narrowed to sixteen bits, which
  changes no extended real), and writes back tile (a, b) of the result: rows 512a …, columns 512b …. Entry (p, q)
  of the tile is the specification's value of data row 512a + p and weight row 512b + q, which is the
  specification's array at (512a + p, 512b + q). The tiles cover the result array — entry (r, o) lies in the
  tile of point 32·(r / 512) + o / 512 — so after the run the array is the specification's array.
-/
import proofs.«144696_j59356448031118_1_alg».proof.Proof.Gen.KernelIdeal.Value
import proofs.«144696_j59356448031118_1_alg».proof.Proof.Payload
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.NormLinear.KernelRun

open Cert.KernelIdeal Cert.KernelIdeal.Gen Cert.KernelIdeal.Value Cert.NormLinear Cert.NormLinear.Kernel

variable (m : (ℓ : Loc nD τ sig) → Buf (Elt Ideal) ℓ) (ρ : Dev nD → PrngReg)

theorem origin : (![0, 0] : Fin 2 → Nat) = fun _ => 0 := funext fun a => by fin_cases a <;> rfl

/-- The data and the weights as launched on core c. -/
abbrev dataOf (c : Dev nD) : (⟨2, ![8192, 4096]⟩ : Shape).Idx → EReal := m ((c : Thread nD τ).loc main_arg0)
abbrev weightsOf (c : Dev nD) : (⟨2, ![16384, 4096]⟩ : Shape).Idx → EReal := m ((c : Thread nD τ).loc main_arg1)

/-- The weights as the region finds them: narrowed to sixteen bits on the host, the same extended reals. -/
theorem weights_entry (c : Dev nD) : (V m c main_v0 : S16384x4096.Idx → EReal) = weightsOf m c := by
  dsimp only [V, hostOps0]; after_results; rfl

/-- Point t = 32a + b: the data window is at block row a, the weight window at block row b, the result window at
    tile (a, b); decided over the 512 points. -/
theorem point_blocks : ∀ t : Fin cfg0.N,
    win0_0.index t (0 : Fin 2) = t.val / 32 ∧ win0_0.index t (1 : Fin 2) = 0
    ∧ win0_1.index t (0 : Fin 2) = t.val % 32 ∧ win0_1.index t (1 : Fin 2) = 0
    ∧ win0_2.index t (0 : Fin 2) = t.val / 32 ∧ win0_2.index t (1 : Fin 2) = t.val % 32 :=
  (by decide +kernel : ∀ t : Fin grid0.N, _)

/-- Entry (p, k) of the data block at point t is entry (512·(t / 32) + p, k) of the data. -/
theorem dataBlock_apply (c : Dev nD) (t : Fin cfg0.N) (p : Fin 512) (k : Fin 4096) (r : Fin 8192)
    (hr : r.val = t.val / 32 * 512 + p.val) :
    (iblk m c 0 t : FVec Ideal S512x4096 .f32) (ix2 p k) = dataOf m c (ix2 r k) := by
  obtain ⟨e0, e1, -, -, -, -⟩ := point_blocks t
  unfold iblk
  rw [View.read_apply]
  show V m c main_arg0 _ = m ((c : Thread nD τ).loc main_arg0) _
  rw [V_main_arg0]
  congr 1
  funext a
  apply Fin.ext
  match a with
  | ⟨0, _⟩ => show win0_0.index t (0 : Fin 2) * 512 + 1 * p.val = r.val; rw [e0, hr]; omega
  | ⟨1, _⟩ => show win0_0.index t (1 : Fin 2) * 4096 + 1 * k.val = k.val; rw [e1]; omega

/-- Entry (q, k) of the weight block at point t is entry (512·(t % 32) + q, k) of the weights. -/
theorem weightBlock_apply (c : Dev nD) (t : Fin cfg0.N) (q : Fin 512) (k : Fin 4096) (o : Fin 16384)
    (ho : o.val = t.val % 32 * 512 + q.val) :
    (iblk m c 1 t : FVec Ideal S512x4096 .bf16) (ix2 q k) = weightsOf m c (ix2 o k) := by
  obtain ⟨-, -, e0, e1, -, -⟩ := point_blocks t
  unfold iblk
  rw [View.read_apply]
  show (V m c main_v0 : S16384x4096.Idx → EReal) _ = weightsOf m c _
  rw [weights_entry]
  congr 1
  funext a
  apply Fin.ext
  match a with
  | ⟨0, _⟩ => show win0_1.index t (0 : Fin 2) * 512 + 1 * q.val = o.val; rw [e0, ho]; omega
  | ⟨1, _⟩ => show win0_1.index t (1 : Fin 2) * 4096 + 1 * k.val = k.val; rw [e1]; omega

/-- A tile's entry from blocks whose rows p and q are rows r and o of the arrays: the specification's array at (r, o). -/
theorem tile_entry (X : (⟨2, ![8192, 4096]⟩ : Shape).Idx → EReal) (W : (⟨2, ![16384, 4096]⟩ : Shape).Idx → EReal)
    (x0 : FVec Ideal S512x4096 .f32) (w0 : FVec Ideal S512x4096 .bf16) (r : Fin 8192) (o : Fin 16384) (p q : Fin 512)
    (hx : ∀ k : Fin 4096, x0 (ix2 p k) = X (ix2 r k)) (hw : ∀ k : Fin 4096, w0 (ix2 q k) = W (ix2 o k)) :
    k0_pay1 (F := Ideal) x0 w0 (ix2 p q) = result X W (ix2 r o) := by
  rw [payload_apply, result_apply, show rowOf x0 p = rowOf X r from funext hx, show rowOf w0 q = rowOf W o from funext hw]

/-- WHAT POINT t WRITES BACK is tile t of the specification's array of the data and the weights as launched. -/
theorem flushed_eq (c : Dev nD) (t : Fin cfg0.N) :
    (dats m 0 c).flushed 2 t = ((cfg0.win 2).blk t).view.read (Elt Ideal) (result (dataOf m c) (weightsOf m c)) := by
  rw [Value.flushed2]
  unfold out0_2
  rw [View.canon_unit_zero origin]
  simp only [View.ld_unit_zero (S := S512x4096) origin]
  obtain ⟨-, -, -, -, e0, e1⟩ := point_blocks t
  have ht : t.val < 512 := Nat.lt_of_lt_of_eq t.isLt (show cfg0.N = 512 from N_0)
  funext j
  have hj0 : (j 0).val < 512 := (j 0).isLt
  have hj1 : (j 1).val < 512 := (j 1).isLt
  have hr : t.val / 32 * 512 + (j 0).val < 8192 := by omega
  have ho : t.val % 32 * 512 + (j 1).val < 16384 := by omega
  show k0_pay1 (F := Ideal) (iblk m c 0 t) (iblk m c 1 t) j
    = result (dataOf m c) (weightsOf m c) (((cfg0.win 2).blk t).view.emb j)
  have hj : (j : S512x512.Idx) = ix2 (⟨(j 0).val, hj0⟩ : Fin 512) (⟨(j 1).val, hj1⟩ : Fin 512) :=
    funext fun a => by match a with | ⟨0, _⟩ => rfl | ⟨1, _⟩ => rfl
  have hemb : ((cfg0.win 2).blk t).view.emb j
      = ix2 (⟨t.val / 32 * 512 + (j 0).val, hr⟩ : Fin 8192) (⟨t.val % 32 * 512 + (j 1).val, ho⟩ : Fin 16384) := by
    funext a
    apply Fin.ext
    match a with
    | ⟨0, _⟩ => show win0_2.index t (0 : Fin 2) * 512 + 1 * (j 0).val = t.val / 32 * 512 + (j 0).val; rw [e0]; omega
    | ⟨1, _⟩ => show win0_2.index t (1 : Fin 2) * 512 + 1 * (j 1).val = t.val % 32 * 512 + (j 1).val; rw [e1]; omega
  refine (congrArg (k0_pay1 (F := Ideal) (iblk m c 0 t) (iblk m c 1 t)) hj).trans ?_
  refine Eq.trans ?_ (congrArg (result (dataOf m c) (weightsOf m c)) hemb.symm)
  exact tile_entry (dataOf m c) (weightsOf m c) (iblk m c 0 t) (iblk m c 1 t) ⟨t.val / 32 * 512 + (j 0).val, hr⟩
    ⟨t.val % 32 * 512 + (j 1).val, ho⟩ ⟨(j 0).val, hj0⟩ ⟨(j 1).val, hj1⟩
    (fun k => dataBlock_apply m c t ⟨(j 0).val, hj0⟩ k ⟨t.val / 32 * 512 + (j 0).val, hr⟩ rfl)
    (fun k => weightBlock_apply m c t ⟨(j 1).val, hj1⟩ k ⟨t.val % 32 * 512 + (j 1).val, ho⟩ rfl)

/-- An index of the result array is in point t's tile iff each coordinate is in the tile's range on its axis. -/
theorem mem_tile (t : Fin cfg0.N) (i : S8192x16384.Idx) :
    i ∈ ((cfg0.win 2).blk t).view.set ↔ ∀ a : Fin 2, win0_2.index t a * S512x512.size a ≤ (i a).val
      ∧ (i a).val < win0_2.index t a * S512x512.size a + S512x512.size a := by
  show i ∈ ((View.whole main_v1).slice (win0_2.rect t)).set ↔ _
  rw [View.set_slice_whole, Rect.mem_set_unit]
  exact Iff.rfl

/-- THE TILES COVER THE RESULT: entry (r, o) lies in the tile of point 32·(r / 512) + o / 512. -/
theorem tiles_cover (i : S8192x16384.Idx) :
    ∃ t : Fin cfg0.N, (cfg0.win 2).flush t = true ∧ i ∈ ((cfg0.win 2).blk t).view.set := by
  have hi0 : (i 0).val < 8192 := (i 0).isLt
  have hi1 : (i 1).val < 16384 := (i 1).isLt
  have hN : cfg0.N = 512 := N_0
  have hlt : (i 0).val / 512 * 32 + (i 1).val / 512 < cfg0.N := by rw [hN]; omega
  obtain ⟨-, -, -, -, e0, e1⟩ := point_blocks ⟨(i 0).val / 512 * 32 + (i 1).val / 512, hlt⟩
  refine ⟨⟨(i 0).val / 512 * 32 + (i 1).val / 512, hlt⟩, flush0_2 _, ?_⟩
  rw [mem_tile]
  intro a
  match a with
  | ⟨0, _⟩ =>
    show win0_2.index ⟨(i 0).val / 512 * 32 + (i 1).val / 512, hlt⟩ (0 : Fin 2) * 512 ≤ (i 0).val
      ∧ (i 0).val < win0_2.index ⟨(i 0).val / 512 * 32 + (i 1).val / 512, hlt⟩ (0 : Fin 2) * 512 + 512
    rw [e0]
    show ((i 0).val / 512 * 32 + (i 1).val / 512) / 32 * 512 ≤ (i 0).val
      ∧ (i 0).val < ((i 0).val / 512 * 32 + (i 1).val / 512) / 32 * 512 + 512
    omega
  | ⟨1, _⟩ =>
    show win0_2.index ⟨(i 0).val / 512 * 32 + (i 1).val / 512, hlt⟩ (1 : Fin 2) * 512 ≤ (i 1).val
      ∧ (i 1).val < win0_2.index ⟨(i 0).val / 512 * 32 + (i 1).val / 512, hlt⟩ (1 : Fin 2) * 512 + 512
    rw [e1]
    show ((i 0).val / 512 * 32 + (i 1).val / 512) % 32 * 512 ≤ (i 1).val
      ∧ (i 1).val < ((i 0).val / 512 * 32 + (i 1).val / 512) % 32 * 512 + 512
    omega

/-- THE RESULT ARRAY after the run is the specification's array of the data and the weights as launched. -/
theorem final (c : Dev nD) : (dats m 0 c).arrAt 2 cfg0.N = result (dataOf m c) (weightsOf m c) :=
  (dats m 0 c).arrAt_eq_of_cover 2 (result (dataOf m c) (weightsOf m c)) (fun t _ => flushed_eq m c t) (tiles_cover)

/-- The kernel's run, read: the result array at the specification's array, the arguments unchanged. -/
theorem run : θ_run defs (onTc (τ := τ) (main (F := Ideal))) ⟨m, fun _ => 0, ρ⟩ fun r => ∀ c : Dev nD,
      r.2.mem ((c : Thread nD τ).loc main_v1) = result (dataOf m c) (weightsOf m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.NormLinear.KernelRun

end
-- ==== Proof.lean ====
/-
  Layer normalisation, a linear map and the logistic function: the tiled kernel against the whole-array reference.

  Both programs compute, at (r, o), the logistic function of the score of data row r against weight row o: the row
  is centred by its mean, scaled by the reciprocal square root of its biased variance plus ε, and contracted with
  the weight row over the width 4096. The kernel does this tile by tile (512 data rows against 512 weight rows at
  each of 16 × 32 grid points, every row whole, so no sum is split), with lane sums, a matrix product into a zero
  accumulator and the logistic operation; the reference does it on whole arrays, with host sums, a general dot
  product and `1 / (1 + e^(-y))`. On the extended reals these are the same functions operation by operation: the
  divisor 4096 and ε are the same words on both sides, narrowing to sixteen bits is the identity, and the logistic
  function is by definition `1 / (1 + e^(-y))`. No law that needs finiteness is used, so the precondition is never
  opened. The kernel read on the extended reals is the kernel's own text, operation for operation, so the claim that
  relates the two is trivial.
-/
import proofs.«144696_j59356448031118_1_alg».proof.Defs
import proofs.«144696_j59356448031118_1_alg».proof.Proof.Gen.Kernel
import proofs.«144696_j59356448031118_1_alg».proof.Proof.Gen.Kernel.Skeleton
import proofs.«144696_j59356448031118_1_alg».proof.Proof.Gen.Kernel.Launch
import proofs.«144696_j59356448031118_1_alg».proof.Proof.Gen.Kernel.Points
import proofs.«144696_j59356448031118_1_alg».proof.Proof.Gen.Kernel.Frame
import proofs.«144696_j59356448031118_1_alg».proof.Proof.Gen.KernelIdeal
import proofs.«144696_j59356448031118_1_alg».proof.Proof.Gen.KernelIdeal.Skeleton
import proofs.«144696_j59356448031118_1_alg».proof.Proof.Gen.KernelIdeal.Launch
import proofs.«144696_j59356448031118_1_alg».proof.Proof.Gen.KernelIdeal.Points
import proofs.«144696_j59356448031118_1_alg».proof.Proof.Gen.KernelIdeal.Frame
import proofs.«144696_j59356448031118_1_alg».proof.Proof.Gen.ReferenceIdeal
import proofs.«144696_j59356448031118_1_alg».proof.Proof.Gen.Pre_finite_inputs
import proofs.«144696_j59356448031118_1_alg».proof.Proof.Gen.KernelIdeal.Value
import proofs.«144696_j59356448031118_1_alg».proof.Proof.Gen.ReferenceIdeal.Run
import proofs.«144696_j59356448031118_1_alg».proof.Proof.Gen.ReferenceIdeal.Read
import proofs.«144696_j59356448031118_1_alg».proof.Proof.Spec
import proofs.«144696_j59356448031118_1_alg».proof.Proof.RefValue
import proofs.«144696_j59356448031118_1_alg».proof.Proof.Payload
import proofs.«144696_j59356448031118_1_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments as they were: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten between the kernel and its reading on the extended reals. -/
theorem preserves : Cert.preserves_Kernel_KernelIdeal := trivial

/-- From arguments that agree, the kernel's result array and the reference's are both the array whose entry (r, o)
    is the logistic function of the score of normalised data row r against weight row o. -/
theorem algebraic : Cert.algebraic_KernelIdeal_ReferenceIdeal := by
  intro m ρ m' ρ' _ hagree
  refine ⟨fun c => Cert.NormLinear.result (Cert.NormLinear.KernelRun.dataOf m c) (Cert.NormLinear.KernelRun.weightsOf m c),
    Cert.NormLinear.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, (hagree c).1, (hagree c).2]
  exact Cert.NormLinear.Reference.value_eq _ _

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
